-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S14336x4096 : Shape := ⟨2, ![14336, 4096]⟩
abbrev S4096x14336 : Shape := ⟨2, ![4096, 14336]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S4096x14336 : S_.BroadcastsInDim S4096x14336 (![] : Fin 0 → Fin S4096x14336.rank)
  reducesTo_S4096x14336_S_d0_1 : S4096x14336.ReducesTo [0, 1] S_

variable [Facts]

def fn_part1 {F : FTy → Type} [FloatOps F] (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  main_v18

def fn {F : FTy → Type} [FloatOps F] (main_arg0 : FVec F S4096x4096 .f32) (main_arg1 : FVec F S14336x4096 .f32) (main_arg2 : FVec F S4096x14336 .f32) (main_arg3 : FVec F S14336x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_v13 main_v16
-- ==== Kernel.lean ====
abbrev S4096x4096 : Shape := ⟨2, ![4096, 4096]⟩
abbrev S14336x4096 : Shape := ⟨2, ![14336, 4096]⟩
abbrev S4096x14336 : Shape := ⟨2, ![4096, 14336]⟩
abbrev S1024x4096 : Shape := ⟨2, ![1024, 4096]⟩
abbrev S128x4096 : Shape := ⟨2, ![128, 4096]⟩
abbrev S4096x128 : Shape := ⟨2, ![4096, 128]⟩
abbrev S1024x128 : Shape := ⟨2, ![1024, 128]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S4096x14336, .f32⟩
  | .hbm, ⟨3, _⟩ => ⟨S14336x4096, .f32⟩
  | .hbm, ⟨4, _⟩ => ⟨S4096x4096, .bf16⟩
  | .hbm, ⟨5, _⟩ => ⟨S14336x4096, .bf16⟩
  | .hbm, ⟨6, _⟩ => ⟨S14336x4096, .bf16⟩
  | .hbm, ⟨7, _⟩ => ⟨S4096x14336, .bf16⟩
  | .hbm, ⟨8, _⟩ => ⟨S4096x4096, .f32⟩
  | .local _ .vmem, ⟨0, _⟩ => ⟨S1024x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S4096x128, .bf16⟩
  | .local _ .vmem, ⟨6, _⟩ => ⟨S4096x128, .bf16⟩
  | .local _ .vmem, ⟨7, _⟩ => ⟨S1024x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![4, 112], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  dot_S1024x4096_S128x4096_S1024x128_1_1_0_0_n_n_wf : DotDims.WF S1024x4096 S128x4096 S1024x128 [1] [1] [0] [0] [] []
  dot_S1024x128_S4096x128_S1024x4096_1_1_0_0_n_n_wf : DotDims.WF S1024x128 S4096x128 S1024x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .bf16 = 32 ∨ (Rect.block (s := S4096x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S14336x4096.size a
  hwx0_1 : ∀ i : grid0.Coords, EltTy.bits .bf16 = 32 ∨ (Rect.block (s := S14336x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S14336x4096.size a
  hwx0_2 : ∀ i : grid0.Coords, EltTy.bits .bf16 = 32 ∨ (Rect.block (s := S14336x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x14336.size a
  hwx0_3 : ∀ i : grid0.Coords, EltTy.bits .bf16 = 32 ∨ (Rect.block (s := S4096x14336) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S4096x4096.size a
  hwx0_4 : ∀ i : grid0.Coords, EltTy.bits .f32 = 32 ∨ (Rect.block (s := S4096x4096) S1024x4096.size (cc0_transform_4 i) (hinb0_4 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf
def dot_S1024x128_S4096x128_S1024x4096_1_1_0_0_n_n : DotDims S1024x128 S4096x128 S1024x4096 where
  lhsContracting := [1]
  rhsContracting := [1]
  lhsNonContracting := [0]
  rhsNonContracting := [0]
  lhsBatch := []
  rhsBatch := []
  wf := dot_S1024x128_S4096x128_S1024x4096_1_1_0_0_n_n_wf

abbrev win0_0 : Pipeline.Window sig grid0 :=
  Pipeline.Window.ofSpec (Memref.whole main_v0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S14336x4096 : Shape := ⟨2, ![14336, 4096]⟩
abbrev S4096x14336 : Shape := ⟨2, ![4096, 14336]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S14336x4096, .f32⟩
  | .hbm, ⟨2, _⟩ => ⟨S4096x14336, .f32⟩
  | .hbm, ⟨3, _⟩ => ⟨S14336x4096, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S4096x14336, .f32⟩
  | .hbm, ⟨8, _⟩ => ⟨S_, .f32⟩
  | .hbm, ⟨9, _⟩ => ⟨S4096x14336, .f32⟩
  | .hbm, ⟨10, _⟩ => ⟨S4096x14336, .f32⟩
  | .hbm, ⟨11, _⟩ => ⟨S_, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x14336 : S_.BroadcastsInDim S4096x14336 (![] : Fin 0 → Fin S4096x14336.rank)
  dot_S4096x4096_S14336x4096_S4096x14336_1_1_0_0_n_n_wf : DotDims.WF S4096x4096 S14336x4096 S4096x14336 [1] [1] [0] [0] [] []
  dot_S4096x14336_S4096x14336_S4096x4096_1_1_0_0_n_n_wf : DotDims.WF S4096x14336 S4096x14336 S4096x4096 [1] [1] [0] [0] [] []

variable [Facts₀]

def dot_S4096x4096_S14336x4096_S4096x14336_1_1_0_0_n_n : DotDims S4096x4096 S14336x4096 S4096x14336 where
  lhsContracting := [1]
  rhsContracting := [1]
  lhsNonContracting := [0]
  rhsNonContracting := [0]
  lhsBatch := []
  rhsBatch := []
  wf := dot_S4096x4096_S14336x4096_S4096x14336_1_1_0_0_n_n_wf
def dot_S4096x14336_S4096x14336_S4096x4096_1_1_0_0_n_n : DotDims S4096x14336 S4096x14336 S4096x4096 where
  lhsContracting := [1]
  rhsContracting := [1]
  lhsNonContracting := [0]
  rhsNonContracting := [0]
  lhsBatch := []
  rhsBatch := []
  wf := dot_S4096x14336_S4096x14336_S4096x4096_1_1_0_0_n_n_wf

class Facts : Prop extends Facts₀ where

variable [Facts]
-- ==== Proof.GatedFfn.lean ====
/-
  The gated feed-forward layer as ONE function of its four arrays, index by index, on the extended reals.

  With x : [4096, 4096] (tokens × hidden), w1, w3 : [14336, 4096] (intermediate × hidden) and
  w2 : [4096, 14336] (hidden × intermediate):

    proj x w t i   = ∑ h, x[t, h] · w[i, h]                              (a row of x against a row of w)
    hidden t i     = proj x w1 t i · σ(proj x w1 t i) · proj x w3 t i    (σ the logistic function 1 / (1 + e^(-g)))
    ffn [t, o]     = ∑ i, hidden t i · w2[o, i]

  The only law used between the two programs is that a sum over the 14336 intermediate coordinates is the sum over
  112 consecutive blocks of 128 of each block's sum: addition on the extended reals is commutative and associative
  (no cancellation and no distributivity are asked), so no finiteness of the entries is needed.
-/
import Idealize.ShloMosaic.PureOps.Ideal
import Idealize.ShloMosaic.Lib.ValueIdx
import Mathlib.Algebra.BigOperators.Fin
import Mathlib.Logic.Equiv.Fin.Basic

noncomputable section

namespace Cert.GatedFfn

open Idealize.ShloMosaic Idealize.ShloMosaic.ValueIdx

/-- tokens × hidden: the activations and the result. -/
abbrev ShTok : Shape := ⟨2, ![4096, 4096]⟩
/-- intermediate × hidden: the weights of the gate and of the up projection. -/
abbrev ShUp : Shape := ⟨2, ![14336, 4096]⟩
/-- hidden × intermediate: the weights of the down projection. -/
abbrev ShDown : Shape := ⟨2, ![4096, 14336]⟩

/-- Row t of x against row i of w: the contraction over the hidden axis. -/
def proj (x : ShTok.Idx → EReal) (w : ShUp.Idx → EReal) (t : Fin 4096) (i : Fin 14336) : EReal :=
  ∑ h : Fin 4096, x (ix2 t h) * w (ix2 i h)

/-- The gated intermediate activation g · σ(g) · u, with g the gate projection and u the up projection. -/
def hidden (x : ShTok.Idx → EReal) (w1 w3 : ShUp.Idx → EReal) (t : Fin 4096) (i : Fin 14336) : EReal :=
  proj x w1 t i * Ideal.logistic (proj x w1 t i) * proj x w3 t i

/-- One addend of the down projection at output (t, o): the share of intermediate coordinate i. -/
def term (x : ShTok.Idx → EReal) (w1 : ShUp.Idx → EReal) (w2 : ShDown.Idx → EReal) (w3 : ShUp.Idx → EReal)
    (t o : Fin 4096) (i : Fin 14336) : EReal :=
  hidden x w1 w3 t i * w2 (ix2 o i)

/-- The layer: the down projection of the gated activations. -/
def ffn (x : ShTok.Idx → EReal) (w1 : ShUp.Idx → EReal) (w2 : ShDown.Idx → EReal) (w3 : ShUp.Idx → EReal) :
    ShTok.Idx → EReal :=
  fun j => ∑ i : Fin 14336, term x w1 w2 w3 (j 0) (j 1) i

/-- The float literal 1.0 denotes the real number one. -/
theorem one_f32 : Ideal.ofBits .f32 0x3F800000#32 = 1 := by
  simp [Ideal.ofBits, Ideal.ieee, -EReal.coe_mul]; norm_num

/-- The float literal +0.0 denotes zero. -/
theorem zero_f32 : Ideal.ofBits .f32 0x00000000#32 = 0 := by
  simp [Ideal.ofBits, Ideal.ieee]

/-- The logistic function spelt out: 1 / (1 + e^(-g)), with the conventions of the extended reals at ±∞. -/
theorem logistic_eq (g : EReal) : Ideal.logistic g = Ideal.div 1 (1 + Ideal.exp (-g)) := rfl

/-- A sum over 14336 coordinates is the sum over 112 blocks of the sums over each block's 128 coordinates
    (coordinate 128·s + j is place j of block s). -/
theorem sum_blocks {M : Type*} [AddCommMonoid M] (f : Fin 14336 → M) :
    ∑ i, f i = ∑ s : Fin 112, ∑ j : Fin 128, f ⟨128 * s.val + j.val, by have := s.isLt; have := j.isLt; omega⟩ := by
  rw [← Equiv.sum_comp ((finProdFinEquiv (m := 112) (n := 128)).trans (finCongr (by norm_num : 112 * 128 = 14336))) f,
    Fintype.sum_prod_type]
  refine Finset.sum_congr rfl fun s _ => Finset.sum_congr rfl fun j _ => congrArg f (Fin.ext ?_)
  simp [finProdFinEquiv, Nat.add_comm]

end Cert.GatedFfn

end
-- ==== Proof.RefIsFfn.lean ====
/-
  The reference program's result, read index by index, is the layer ffn of the four argument arrays.

  The reference contracts x with w1 and with w3 over the hidden axis (two dot_generals), multiplies the first by
  1 / (1 + exp (-·)) of itself (the logistic function spelt in negate, exponential, add and divide) and by the second,
  and contracts the product with w2 over the intermediate axis. Reading each stage at an index gives exactly
  ∑ i, (g · σ(g) · u) · w2[o, i] with g and u the two projections at (t, i): the definition of ffn at (t, o).
-/
import proofs.«137959_j62397284876805_1_alg».proof.Proof.Gen.ReferenceIdeal.Read
import proofs.«137959_j62397284876805_1_alg».proof.Proof.GatedFfn

noncomputable section

namespace Cert.ReferenceIdeal.RefValue

open Cert.ReferenceIdeal Cert.ReferenceIdeal.Gen Cert.ReferenceIdeal.Read Idealize.ShloMosaic Idealize.ShloMosaic.ValueIdx
open Cert.GatedFfn

/-- The reference's last stage is the layer, at every output index (t, o). -/
theorem result_eq_ffn (x0 : (⟨S4096x4096, .f32⟩ : BufTy).Contents (Elt Ideal)) (x1 : (⟨S14336x4096, .f32⟩ : BufTy).Contents (Elt Ideal))
    (x2 : (⟨S4096x14336, .f32⟩ : BufTy).Contents (Elt Ideal)) (x3 : (⟨S14336x4096, .f32⟩ : BufTy).Contents (Elt Ideal)) :
    val_main_v4 (F := Ideal) x0 x1 x2 x3 = ffn x0 x1 x2 x3 := by
  funext i
  obtain ⟨t, o, rfl⟩ : ∃ (t : Fin 4096) (o : Fin 4096), i = ix2 t o := ⟨i 0, i 1, eq_ix2 i⟩
  rw [val_main_v4_apply]
  show _ = ∑ k : Fin 14336, term x0 x1 x2 x3 t o k
  refine Finset.sum_congr rfl fun k _ => ?_
  -- the operand indices of the three contractions, as coordinates
  have e4l : lidx_main_v4 (ix2 t o) k = ix2 t k := funext fun a => by match a with | ⟨0, _⟩ => rfl | ⟨1, _⟩ => rfl
  have e4r : ridx_main_v4 (ix2 t o) k = ix2 o k := funext fun a => by match a with | ⟨0, _⟩ => rfl | ⟨1, _⟩ => rfl
  have e0l : ∀ h : Fin 4096, lidx_main_v0 (ix2 t k) h = ix2 t h := fun h =>
    funext fun a => by match a with | ⟨0, _⟩ => rfl | ⟨1, _⟩ => rfl
  have e0r : ∀ h : Fin 4096, ridx_main_v0 (ix2 t k) h = ix2 k h := fun h =>
    funext fun a => by match a with | ⟨0, _⟩ => rfl | ⟨1, _⟩ => rfl
  have e1l : ∀ h : Fin 4096, lidx_main_v1 (ix2 t k) h = ix2 t h := fun h =>
    funext fun a => by match a with | ⟨0, _⟩ => rfl | ⟨1, _⟩ => rfl
  have e1r : ∀ h : Fin 4096, ridx_main_v1 (ix2 t k) h = ix2 k h := fun h =>
    funext fun a => by match a with | ⟨0, _⟩ => rfl | ⟨1, _⟩ => rfl
  rw [e4l, e4r, val_main_v3_apply, val_main_v2_apply, val_main_call0_v5_apply, val_main_call0_v4_apply,
    val_main_call0_cst_0_apply, val_main_call0_v3_apply, val_main_call0_v2_apply, val_main_call0_cst_apply,
    val_main_call0_v1_apply, val_main_call0_v0_apply, val_main_v0_apply, val_main_v1_apply]
  simp only [e0l, e0r, e1l, e1r, Ideal.mulf_def, Ideal.addf_def, Ideal.hostDivf_def, Ideal.hostUnary_exp_def,
    Ideal.hostNegf_def, Ideal.negf_def, Ideal.ofBits_def, one_f32]
  rfl

end Cert.ReferenceIdeal.RefValue

end
-- ==== Proof.KernelBody.lean ====
/-
  The kernel body's arithmetic, read at an index of its output block, on the extended reals.

  At one grid point the body holds a block of 1024 rows of x (all 4096 hidden coordinates), 128 rows of w1 and of w3,
  and the matching 128 columns of w2 (all 4096 rows). It forms, for row p of the x block and intermediate place j of
  the blocks, the gate g = ∑ h, x[p, h] · w1[j, h] and the up projection u = ∑ h, x[p, h] · w3[j, h], the gated value
  g · σ(g) · u, and adds ∑ j, (g · σ(g) · u)[p, j] · w2[r, j] to what the output block held at (p, r). Changes of float
  format are the identity on the extended reals, and a matrix product into a zero accumulator is the plain sum.
-/
import proofs.«137959_j62397284876805_1_alg».proof.Proof.Gen.KernelIdeal.Skeleton
import proofs.«137959_j62397284876805_1_alg».proof.Proof.GatedFfn
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two contractions' operand indices, axis by axis -/

theorem lhs_proj_0 (i : S1024x128.Idx) (q : dot_S1024x4096_S128x4096_S1024x128_1_1_0_0_n_n.contr.Idx) :
    (dot_S1024x4096_S128x4096_S1024x128_1_1_0_0_n_n.lhsIdx i q 0).val = (i 0).val := by
  unfold DotDims.lhsIdx
  rw [dif_neg (show ¬(0 : Fin S1024x4096.rank) ∈ dot_S1024x4096_S128x4096_S1024x128_1_1_0_0_n_n.lhsBatch by decide), dif_pos (show (0 : Fin S1024x4096.rank) ∈ dot_S1024x4096_S128x4096_S1024x128_1_1_0_0_n_n.lhsNonContracting by decide)]
  rfl
theorem lhs_proj_1 (i : S1024x128.Idx) (q : dot_S1024x4096_S128x4096_S1024x128_1_1_0_0_n_n.contr.Idx) :
    (dot_S1024x4096_S128x4096_S1024x128_1_1_0_0_n_n.lhsIdx i q 1).val = (q ⟨0, by decide⟩).val :=
  dot_S1024x4096_S128x4096_S1024x128_1_1_0_0_n_n.lhsIdx_val_of_single rfl i q
theorem rhs_proj_0 (i : S1024x128.Idx) (q : dot_S1024x4096_S128x4096_S1024x128_1_1_0_0_n_n.contr.Idx) :
    (dot_S1024x4096_S128x4096_S1024x128_1_1_0_0_n_n.rhsIdx i q 0).val = (i 1).val := by
  unfold DotDims.rhsIdx
  rw [dif_neg (show ¬(0 : Fin S128x4096.rank) ∈ dot_S1024x4096_S128x4096_S1024x128_1_1_0_0_n_n.rhsBatch by decide), dif_pos (show (0 : Fin S128x4096.rank) ∈ dot_S1024x4096_S128x4096_S1024x128_1_1_0_0_n_n.rhsNonContracting by decide)]
  rfl
theorem rhs_proj_1 (i : S1024x128.Idx) (q : dot_S1024x4096_S128x4096_S1024x128_1_1_0_0_n_n.contr.Idx) :
    (dot_S1024x4096_S128x4096_S1024x128_1_1_0_0_n_n.rhsIdx i q 1).val = (q ⟨0, by decide⟩).val :=
  dot_S1024x4096_S128x4096_S1024x128_1_1_0_0_n_n.rhsIdx_val_of_single rfl i q

theorem lhs_down_0 (i : S1024x4096.Idx) (q : dot_S1024x128_S4096x128_S1024x4096_1_1_0_0_n_n.contr.Idx) :
    (dot_S1024x128_S4096x128_S1024x4096_1_1_0_0_n_n.lhsIdx i q 0).val = (i 0).val := by
  unfold DotDims.lhsIdx
  rw [dif_neg (show ¬(0 : Fin S1024x128.rank) ∈ dot_S1024x128_S4096x128_S1024x4096_1_1_0_0_n_n.lhsBatch by decide), dif_pos (show (0 : Fin S1024x128.rank) ∈ dot_S1024x128_S4096x128_S1024x4096_1_1_0_0_n_n.lhsNonContracting by decide)]
  rfl
theorem lhs_down_1 (i : S1024x4096.Idx) (q : dot_S1024x128_S4096x128_S1024x4096_1_1_0_0_n_n.contr.Idx) :
    (dot_S1024x128_S4096x128_S1024x4096_1_1_0_0_n_n.lhsIdx i q 1).val = (q ⟨0, by decide⟩).val :=
  dot_S1024x128_S4096x128_S1024x4096_1_1_0_0_n_n.lhsIdx_val_of_single rfl i q
theorem rhs_down_0 (i : S1024x4096.Idx) (q : dot_S1024x128_S4096x128_S1024x4096_1_1_0_0_n_n.contr.Idx) :
    (dot_S1024x128_S4096x128_S1024x4096_1_1_0_0_n_n.rhsIdx i q 0).val = (i 1).val := by
  unfold DotDims.rhsIdx
  rw [dif_neg (show ¬(0 : Fin S4096x128.rank) ∈ dot_S1024x128_S4096x128_S1024x4096_1_1_0_0_n_n.rhsBatch by decide), dif_pos (show (0 : Fin S4096x128.rank) ∈ dot_S1024x128_S4096x128_S1024x4096_1_1_0_0_n_n.rhsNonContracting by decide)]
  rfl
theorem rhs_down_1 (i : S1024x4096.Idx) (q : dot_S1024x128_S4096x128_S1024x4096_1_1_0_0_n_n.contr.Idx) :
    (dot_S1024x128_S4096x128_S1024x4096_1_1_0_0_n_n.rhsIdx i q 1).val = (q ⟨0, by decide⟩).val :=
  dot_S1024x128_S4096x128_S1024x4096_1_1_0_0_n_n.rhsIdx_val_of_single rfl i q

/-! ## The contractions at an index -/

/-- A block of rows of x against a block of rows of a projection's weights, over the hidden axis: entry (p, r) is row p of the first against row r of the second. -/
theorem proj_apply (a : FVec Ideal S1024x4096 .bf16) (b : FVec Ideal S128x4096 .bf16) (p : Fin 1024) (r : Fin 128) :
    matmul dot_S1024x4096_S128x4096_S1024x128_1_1_0_0_n_n none a b (constant S1024x128 .f32 0x00000000#32) (ix2 p r)
      = ∑ k : Fin 4096, a (ix2 p k) * b (ix2 r k) := by
  refine (Ideal.matmul_constant_zero_apply dot_S1024x4096_S128x4096_S1024x128_1_1_0_0_n_n none a b (ix2 p r)).trans ?_
  rw [← Equiv.sum_comp (contrEquiv1 dot_S1024x4096_S128x4096_S1024x128_1_1_0_0_n_n 4096 rfl rfl).symm]
  refine Finset.sum_congr rfl fun k _ => ?_
  have hk := contrEquiv1_symm_val dot_S1024x4096_S128x4096_S1024x128_1_1_0_0_n_n 4096 rfl rfl k
  have el : dot_S1024x4096_S128x4096_S1024x128_1_1_0_0_n_n.lhsIdx (ix2 p r) ((contrEquiv1 dot_S1024x4096_S128x4096_S1024x128_1_1_0_0_n_n 4096 rfl rfl).symm k) = ix2 p k := funext fun a => Fin.ext (by
    match a with
    | ⟨0, _⟩ => exact lhs_proj_0 _ _
    | ⟨1, _⟩ => exact (lhs_proj_1 _ _).trans hk)
  have er : dot_S1024x4096_S128x4096_S1024x128_1_1_0_0_n_n.rhsIdx (ix2 p r) ((contrEquiv1 dot_S1024x4096_S128x4096_S1024x128_1_1_0_0_n_n 4096 rfl rfl).symm k) = ix2 r k := funext fun a => Fin.ext (by
    match a with
    | ⟨0, _⟩ => exact rhs_proj_0 _ _
    | ⟨1, _⟩ => exact (rhs_proj_1 _ _).trans hk)
  rw [el, er]

/-- The gated block against a block of columns of w2 (held as rows r, places k), over the block's 128 intermediate places. -/
theorem down_apply (a : FVec Ideal S1024x128 .bf16) (b : FVec Ideal S4096x128 .bf16) (p : Fin 1024) (r : Fin 4096) :
    matmul dot_S1024x128_S4096x128_S1024x4096_1_1_0_0_n_n none a b (constant S1024x4096 .f32 0x00000000#32) (ix2 p r)
      = ∑ k : Fin 128, a (ix2 p k) * b (ix2 r k) := by
  refine (Ideal.matmul_constant_zero_apply dot_S1024x128_S4096x128_S1024x4096_1_1_0_0_n_n none a b (ix2 p r)).trans ?_
  rw [← Equiv.sum_comp (contrEquiv1 dot_S1024x128_S4096x128_S1024x4096_1_1_0_0_n_n 128 rfl rfl).symm]
  refine Finset.sum_congr rfl fun k _ => ?_
  have hk := contrEquiv1_symm_val dot_S1024x128_S4096x128_S1024x4096_1_1_0_0_n_n 128 rfl rfl k
  have el : dot_S1024x128_S4096x128_S1024x4096_1_1_0_0_n_n.lhsIdx (ix2 p r) ((contrEquiv1 dot_S1024x128_S4096x128_S1024x4096_1_1_0_0_n_n 128 rfl rfl).symm k) = ix2 p k := funext fun a => Fin.ext (by
    match a with
    | ⟨0, _⟩ => exact lhs_down_0 _ _
    | ⟨1, _⟩ => exact (lhs_down_1 _ _).trans hk)
  have er : dot_S1024x128_S4096x128_S1024x4096_1_1_0_0_n_n.rhsIdx (ix2 p r) ((contrEquiv1 dot_S1024x128_S4096x128_S1024x4096_1_1_0_0_n_n 128 rfl rfl).symm k) = ix2 r k := funext fun a => Fin.ext (by
    match a with
    | ⟨0, _⟩ => exact rhs_down_0 _ _
    | ⟨1, _⟩ => exact (rhs_down_1 _ _).trans hk)
  rw [el, er]

/-! ## The body's result at an index -/

/-- The lane-wise logistic function at an index. -/
theorem logistic_apply {s : Shape} {φ : FTy} (a : FVec Ideal s φ) (i : s.Idx) : logistic a i = Ideal.logistic (a i) := rfl

/-- The gate (or up) projection of the block's row p at the block's intermediate place j. -/
def blockProj (xb : Vec Ideal S1024x4096 .bf16) (wb : Vec Ideal S128x4096 .bf16) (p : Fin 1024) (j : Fin 128) : EReal :=
  ∑ h : Fin 4096, xb (ix2 p h) * wb (ix2 j h)

/-- What the body adds at (p, r): the block's 128 gated values of row p against column block entry (r, ·) of w2. -/
def blockAdd (xb : Vec Ideal S1024x4096 .bf16) (w1b w3b : Vec Ideal S128x4096 .bf16) (w2b : Vec Ideal S4096x128 .bf16)
    (p : Fin 1024) (r : Fin 4096) : EReal :=
  ∑ j : Fin 128, (blockProj xb w1b p j * Ideal.logistic (blockProj xb w1b p j) * blockProj xb w3b p j) * w2b (ix2 r j)

/-- The body's stored block at (p, r): what the block held there plus the point's addend. -/
theorem pay2_apply (xb : Vec Ideal S1024x4096 .bf16) (w1b w3b : Vec Ideal S128x4096 .bf16) (w2b : Vec Ideal S4096x128 .bf16)
    (acc : Vec Ideal S1024x4096 .f32) (p : Fin 1024) (r : Fin 4096) :
    k0_pay2 (F := Ideal) xb w1b w3b w2b acc (ix2 p r) = acc (ix2 p r) + blockAdd xb w1b w3b w2b p r := by
  unfold k0_pay2
  simp only [shapeCast_self]
  refine (addf_apply _ _ _).trans ?_
  rw [down_apply]
  refine congrArg (acc (ix2 p r) + ·) (Finset.sum_congr rfl fun j _ => congrArg (· * w2b (ix2 r j)) ?_)
  rw [truncf_apply, mulf_apply, mulf_apply, logistic_apply, proj_apply, proj_apply]
  rfl

/-- The zero block the first point of a run stores before it accumulates. -/
theorem pay1_apply (i : S1024x4096.Idx) : k0_pay1 (F := Ideal) i = 0 := by
  unfold k0_pay1
  show Ideal.ofBits .f32 0x00000000#32 = 0
  exact Cert.GatedFfn.zero_f32

end Cert.KernelIdeal.Body

end
-- ==== Proof.KernelIsFfn.lean ====
/-
  The kernel's output array after the run is the layer ffn of the four argument arrays.

  The grid has 4 × 112 points; point 112·q + s holds rows 1024·q … 1024·q + 1023 of x, rows 128·s … 128·s + 127 of
  w1 and of w3 (intermediate coordinates), and columns 128·s … 128·s + 127 of w2. The arrays the region reads are the
  arguments with their float format changed, which is the identity on the extended reals. Over the 112 points of run
  q the output block starts at zero and each point adds its 128 intermediate coordinates' terms, so after the run
  entry (p, r) of the block is the sum over s < 112 and j < 128 of term (1024·q + p) r (128·s + j): the sum over all
  14336 intermediate coordinates, which is ffn at (1024·q + p, r). The four runs' blocks tile the array.
-/
import proofs.«137959_j62397284876805_1_alg».proof.Proof.Gen.KernelIdeal.Value
import proofs.«137959_j62397284876805_1_alg».proof.Proof.KernelBody
import proofs.«137959_j62397284876805_1_alg».proof.Proof.GatedFfn
import Idealize.ShloMosaic.Lib.ValueIdx
import Idealize.ShloMosaic.Lib.Pipeline.Value
import Idealize.ShloMosaic.Lib.StableHlo.Run

noncomputable section

namespace Cert.KernelIdeal.FfnValue

open Cert.KernelIdeal Cert.KernelIdeal.Gen Cert.KernelIdeal.Body Idealize.ShloMosaic Idealize.ShloMosaic.TcCoe Idealize.SL.Sem
open Idealize.ShloMosaic.ValueIdx Cert.GatedFfn

variable (m : (ℓ : Loc nD τ sig) → Buf (Elt Ideal) ℓ)

/-! ## The arrays the region finds -/

/-- The activations the region reads are the argument x (the change of float format is the identity). -/
theorem V_x (c : Dev nD) : (V m c main_v0 : S4096x4096.Idx → EReal) = m ((c : Thread nD τ).loc main_arg0) := by
  dsimp only [Gen.V, Gen.hostOps0]; after_results; rfl
/-- The gate weights the region reads are the argument w1. -/
theorem V_w1 (c : Dev nD) : (V m c main_v1 : S14336x4096.Idx → EReal) = m ((c : Thread nD τ).loc main_arg1) := by
  dsimp only [Gen.V, Gen.hostOps0]; after_results; rfl
/-- The up weights the region reads are the argument w3. -/
theorem V_w3 (c : Dev nD) : (V m c main_v2 : S14336x4096.Idx → EReal) = m ((c : Thread nD τ).loc main_arg3) := by
  dsimp only [Gen.V, Gen.hostOps0]; after_results; rfl
/-- The down weights the region reads are the argument w2. -/
theorem V_w2 (c : Dev nD) : (V m c main_v3 : S4096x14336.Idx → EReal) = m ((c : Thread nD τ).loc main_arg2) := by
  dsimp only [Gen.V, Gen.hostOps0]; after_results; rfl

/-! ## The blocks a point holds -/

/-- The block index maps over the grid: point t = 112·q + s takes block row q of x, block row s of w1 and of w3,
    and block column s of w2. -/
theorem idx_in : ∀ t : Fin cfg0.N, win0_0.index t (0 : Fin 2) = t.val / 112 ∧ win0_0.index t (1 : Fin 2) = 0
    ∧ win0_1.index t (0 : Fin 2) = t.val % 112 ∧ win0_1.index t (1 : Fin 2) = 0
    ∧ win0_2.index t (0 : Fin 2) = t.val % 112 ∧ win0_2.index t (1 : Fin 2) = 0
    ∧ win0_3.index t (0 : Fin 2) = 0 ∧ win0_3.index t (1 : Fin 2) = t.val % 112 :=
  (by decide +kernel : ∀ t : Fin grid0.N, _)

/-- Row p of run q's block of x is row 1024·q + p of x. -/
abbrev rowOf (q : ℕ) (hq : q < 4) (p : Fin 1024) : Fin 4096 := ⟨1024 * q + p.val, by have := p.isLt; omega⟩
/-- Place j of block s of the intermediate axis is coordinate 128·s + j. -/
abbrev placeOf (s : ℕ) (hs : s < 112) (j : Fin 128) : Fin 14336 := ⟨128 * s + j.val, by have := j.isLt; omega⟩

theorem xblk_apply (c : Dev nD) (t : Fin cfg0.N) (q s : ℕ) (hq : q < 4) (hs : s < 112) (ht : t.val = 112 * q + s)
    (p : Fin 1024) (h : Fin 4096) :
    iblk m c 0 t (ix2 p h) = m ((c : Thread nD τ).loc main_arg0) (ix2 (rowOf q hq p) h) := by
  obtain ⟨e0, e1, -⟩ := idx_in t
  show V m c main_v0 (((cfg0.win 0).blk t).view.emb (ix2 p h)) = _
  rw [V_x]
  refine congrArg _ (funext fun a => Fin.ext ?_)
  match a with
  | ⟨0, _⟩ => show win0_0.index t (0 : Fin 2) * 1024 + 1 * p.val = 1024 * q + p.val; omega
  | ⟨1, _⟩ => show win0_0.index t (1 : Fin 2) * 4096 + 1 * h.val = h.val; omega

theorem w1blk_apply (c : Dev nD) (t : Fin cfg0.N) (q s : ℕ) (hq : q < 4) (hs : s < 112) (ht : t.val = 112 * q + s)
    (j : Fin 128) (h : Fin 4096) :
    iblk m c 1 t (ix2 j h) = m ((c : Thread nD τ).loc main_arg1) (ix2 (placeOf s hs j) h) := by
  obtain ⟨-, -, e0, e1, -⟩ := idx_in t
  show V m c main_v1 (((cfg0.win 1).blk t).view.emb (ix2 j h)) = _
  rw [V_w1]
  refine congrArg _ (funext fun a => Fin.ext ?_)
  match a with
  | ⟨0, _⟩ => show win0_1.index t (0 : Fin 2) * 128 + 1 * j.val = 128 * s + j.val; omega
  | ⟨1, _⟩ => show win0_1.index t (1 : Fin 2) * 4096 + 1 * h.val = h.val; omega

theorem w3blk_apply (c : Dev nD) (t : Fin cfg0.N) (q s : ℕ) (hq : q < 4) (hs : s < 112) (ht : t.val = 112 * q + s)
    (j : Fin 128) (h : Fin 4096) :
    iblk m c 2 t (ix2 j h) = m ((c : Thread nD τ).loc main_arg3) (ix2 (placeOf s hs j) h) := by
  obtain ⟨-, -, -, -, e0, e1, -⟩ := idx_in t
  show V m c main_v2 (((cfg0.win 2).blk t).view.emb (ix2 j h)) = _
  rw [V_w3]
  refine congrArg _ (funext fun a => Fin.ext ?_)
  match a with
  | ⟨0, _⟩ => show win0_2.index t (0 : Fin 2) * 128 + 1 * j.val = 128 * s + j.val; omega
  | ⟨1, _⟩ => show win0_2.index t (1 : Fin 2) * 4096 + 1 * h.val = h.val; omega

theorem w2blk_apply (c : Dev nD) (t : Fin cfg0.N) (q s : ℕ) (hq : q < 4) (hs : s < 112) (ht : t.val = 112 * q + s)
    (r : Fin 4096) (j : Fin 128) :
    iblk m c 3 t (ix2 r j) = m ((c : Thread nD τ).loc main_arg2) (ix2 r (placeOf s hs j)) := by
  obtain ⟨-, -, -, -, -, -, e0, e1⟩ := idx_in t
  show V m c main_v3 (((cfg0.win 3).blk t).view.emb (ix2 r j)) = _
  rw [V_w2]
  refine congrArg _ (funext fun a => Fin.ext ?_)
  match a with
  | ⟨0, _⟩ => show win0_3.index t (0 : Fin 2) * 4096 + 1 * r.val = r.val; omega
  | ⟨1, _⟩ => show win0_3.index t (1 : Fin 2) * 128 + 1 * j.val = 128 * s + j.val; omega

/-! ## One point's addend, and the fold over a run -/

/-- What point n adds to its output block at a place of the block (zero past the grid, where it is never used). -/
def addend (c : Dev nD) (n : ℕ) (y : S1024x4096.Idx) : EReal :=
  if h : n < cfg0.N then
    blockAdd (iblk m c 0 ⟨n, h⟩) (iblk m c 1 ⟨n, h⟩) (iblk m c 2 ⟨n, h⟩) (iblk m c 3 ⟨n, h⟩) (y 0) (y 1)
  else 0

/-- The first point of a run stores zero plus its addend. -/
theorem reset_apply (c : Dev nD) (n : ℕ) (h : n < cfg0.N) (i : S1024x4096.Idx) :
    Value.reset4 m c n h i = 0 + addend m c n i := by
  obtain ⟨p, r, rfl⟩ : ∃ (p : Fin 1024) (r : Fin 4096), i = ix2 p r := ⟨i 0, i 1, eq_ix2 i⟩
  unfold Value.reset4 addend
  rw [dif_pos h]
  refine (pay2_apply (iblk m c 0 ⟨n, h⟩) (iblk m c 1 ⟨n, h⟩) (iblk m c 2 ⟨n, h⟩) (iblk m c 3 ⟨n, h⟩) (k0_pay1 (F := Ideal)) p r).trans ?_
  rw [pay1_apply]

/-- Every later point stores what the point before left plus its addend. -/
theorem step_apply (c : Dev nD) (n : ℕ) (h : n < cfg0.N) (acc : S1024x4096.Idx → EReal) (i : S1024x4096.Idx) :
    Value.step4 m c n h acc i = acc i + addend m c n i := by
  obtain ⟨p, r, rfl⟩ : ∃ (p : Fin 1024) (r : Fin 4096), i = ix2 p r := ⟨i 0, i 1, eq_ix2 i⟩
  unfold Value.step4 addend
  rw [dif_pos h]
  exact pay2_apply (iblk m c 0 ⟨n, h⟩) (iblk m c 1 ⟨n, h⟩) (iblk m c 2 ⟨n, h⟩) (iblk m c 3 ⟨n, h⟩) acc p r

/-- Point 112·q + s's addend at (p, r) is the sum of the terms of block s's 128 intermediate coordinates, for
    row 1024·q + p of x and row r of w2. -/
theorem addend_eq (c : Dev nD) (q : ℕ) (hq : q < 4) (s : Fin 112) (p : Fin 1024) (r : Fin 4096) :
    addend m c (112 * q + s.val) (ix2 p r)
      = ∑ j : Fin 128, term (m ((c : Thread nD τ).loc main_arg0)) (m ((c : Thread nD τ).loc main_arg1))
          (m ((c : Thread nD τ).loc main_arg2)) (m ((c : Thread nD τ).loc main_arg3)) (rowOf q hq p) r (placeOf s.val s.isLt j) := by
  have hn : 112 * q + s.val < cfg0.N := by rw [show cfg0.N = 448 from N_0]; have := s.isLt; omega
  unfold addend
  rw [dif_pos hn]
  show blockAdd _ _ _ _ p r = _
  unfold blockAdd blockProj Cert.GatedFfn.term Cert.GatedFfn.hidden Cert.GatedFfn.proj
  simp only [xblk_apply m c ⟨112 * q + s.val, hn⟩ q s.val hq s.isLt rfl, w1blk_apply m c ⟨112 * q + s.val, hn⟩ q s.val hq s.isLt rfl,
    w3blk_apply m c ⟨112 * q + s.val, hn⟩ q s.val hq s.isLt rfl, w2blk_apply m c ⟨112 * q + s.val, hn⟩ q s.val hq s.isLt rfl]

/-- After the 112 points of run q the block holds, at (p, r), the layer at (1024·q + p, r). -/
theorem fold_eq (c : Dev nD) (q : ℕ) (hq : q < 4) (h : 112 * q + 111 < cfg0.N) (p : Fin 1024) (r : Fin 4096) :
    Pipeline.accAt (Value.reset4 m c) (Value.step4 m c) (112 * q) 111 h (ix2 p r)
      = ∑ i : Fin 14336, term (m ((c : Thread nD τ).loc main_arg0)) (m ((c : Thread nD τ).loc main_arg1))
          (m ((c : Thread nD τ).loc main_arg2)) (m ((c : Thread nD τ).loc main_arg3)) (rowOf q hq p) r i := by
  rw [Pipeline.accAt_add_apply (β := EReal) (Value.reset4 m c) (Value.step4 m c) (fun _ => 0) (addend m c) (112 * q) 111
    (fun h i => reset_apply m c _ h i) (fun n h acc i _ _ => step_apply m c n h acc i) 111 le_rfl h (ix2 p r)]
  rw [zero_add, Finset.sum_range, sum_blocks]
  exact Finset.sum_congr rfl fun s _ => addend_eq m c q hq s p r

/-! ## The array after the run -/

/-- The output array after the run is the layer of the argument arrays. -/
theorem G4_eq_ffn (c : Dev nD) :
    (Value.G4 m c : S4096x4096.Idx → EReal)
      = ffn (m ((c : Thread nD τ).loc main_arg0)) (m ((c : Thread nD τ).loc main_arg1))
          (m ((c : Thread nD τ).loc main_arg2)) (m ((c : Thread nD τ).loc main_arg3)) := by
  funext i
  obtain ⟨t, o, rfl⟩ : ∃ (t : Fin 4096) (o : Fin 4096), i = ix2 t o := ⟨i 0, i 1, eq_ix2 i⟩
  have hN : cfg0.N = 448 := N_0
  have ht := t.isLt
  have ho := o.isLt
  have hrun : Value.run4Of (ix2 t o) = t.val / 1024 := by
    show 1 * (t.val / 1024 - 0) + 1 * (o.val / 4096 - 0) = _
    omega
  have hloc : Value.loc4Of (ix2 t o) = ix2 (⟨t.val % 1024, Nat.mod_lt _ (by decide)⟩ : Fin 1024) (⟨o.val % 4096, Nat.mod_lt _ (by decide)⟩ : Fin 4096) :=
    funext fun a => by match a with | ⟨0, _⟩ => rfl | ⟨1, _⟩ => rfl
  have hq : t.val / 1024 < 4 := by omega
  unfold Value.G4
  rw [dif_pos (by rw [hrun, hN]; omega), hloc]
  have key : ∀ (b : ℕ) (hb : b = t.val / 1024) (h : 112 * b + 111 < cfg0.N),
      Pipeline.accAt (Value.reset4 m c) (Value.step4 m c) (112 * b) 111 h
          (ix2 (⟨t.val % 1024, Nat.mod_lt _ (by decide)⟩ : Fin 1024) (⟨o.val % 4096, Nat.mod_lt _ (by decide)⟩ : Fin 4096))
        = ∑ i : Fin 14336, term (m ((c : Thread nD τ).loc main_arg0)) (m ((c : Thread nD τ).loc main_arg1))
            (m ((c : Thread nD τ).loc main_arg2)) (m ((c : Thread nD τ).loc main_arg3)) t o i := by
    intro b hb h
    subst hb
    rw [fold_eq m c (t.val / 1024) hq h]
    have e1 : rowOf (t.val / 1024) hq (⟨t.val % 1024, Nat.mod_lt _ (by decide)⟩ : Fin 1024) = t :=
      Fin.ext (by show 1024 * (t.val / 1024) + t.val % 1024 = t.val; omega)
    have e2 : (⟨o.val % 4096, Nat.mod_lt _ (by decide)⟩ : Fin 4096) = o := Fin.ext (Nat.mod_eq_of_lt ho)
    rw [e1, e2]
  exact key _ hrun _

end Cert.KernelIdeal.FfnValue

end
-- ==== Proof.lean ====
/-
  A gated feed-forward layer, out = w2 · (silu(w1 · x) ⊙ (w3 · x)), computed by a tiled kernel and by plain array
  operations: the two agree on the extended reals.

  Both programs compute, at output (t, o), the sum over the 14336 intermediate coordinates i of
  g · σ(g) · u · w2[o, i], with g = ∑ h, x[t, h] · w1[i, h], u = ∑ h, x[t, h] · w3[i, h] and σ the logistic function
  (Proof/GatedFfn.lean). The reference does so in one contraction (Proof/RefIsFfn.lean). The kernel walks the
  intermediate axis in 112 blocks of 128 for each block of 1024 rows of x, starting its output block at zero and adding
  one block's share per grid point (Proof/KernelBody.lean, Proof/KernelIsFfn.lean); its changes of float format are the
  identity on the extended reals. The two sums differ only in the grouping of their addends, and addition on the
  extended reals is commutative and associative, so the precondition (finite inputs) is not used.
  The idealization rewrote nothing, so the kernel and its idealized form are the same text and that claim is trivial;
  each program's frame claim is its run with the results dropped.
-/
import proofs.«137959_j62397284876805_1_alg».proof.Defs
import proofs.«137959_j62397284876805_1_alg».proof.Proof.Gen.Kernel.Frame
import proofs.«137959_j62397284876805_1_alg».proof.Proof.Gen.KernelIdeal.Value
import proofs.«137959_j62397284876805_1_alg».proof.Proof.Gen.Pre_finite_inputs
import proofs.«137959_j62397284876805_1_alg».proof.Proof.Gen.ReferenceIdeal.Run
import proofs.«137959_j62397284876805_1_alg».proof.Proof.RefIsFfn
import proofs.«137959_j62397284876805_1_alg».proof.Proof.KernelIsFfn
import Idealize.ShloMosaic.Adequacy
import Idealize.ShloMosaic.Init

noncomputable section

namespace Cert.Proof

open Idealize.ShloMosaic Idealize.SL.Sem

/-- The idealized kernel runs and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The reference runs and leaves its arguments as they were: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments both programs end with the layer of those arguments in their result:
    the kernel's array is the fold of its 112-point runs, which is the layer; the reference's last stage is the layer. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.RefValue.result_eq_ffn _ _ _ _).trans (Cert.KernelIdeal.FfnValue.G4_eq_ffn m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
